-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128x40 .f32) (main_arg11 : FVec F S40 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x40 .f32 := Host.absf main_arg10
  let main_cst_16 : FVec F S_ .f32 := constant S_ .f32 0x7F800000#32
  let main_v45 : FVec F S128x40 .f32 := broadcastInDim S128x40 ![] bcast_S_S128x40 main_cst_16
  let main_v46 : IVec S128x40 1 := cmpf .olt main_v44 main_v45
  let main_c_17 : IVec S_ 1 := constantI S_ 1 1#1
  let main_v47 : IVec S_ 1 := (fun x v => Host.reduce IntOp.andi x v reducesTo_S128x40_S_d0_1 h_S_) main_v46 main_c_17
  let main_v48 : IVec S_ 1 := andi main_v43 main_v47
  let main_v49 : FVec F S40 .f32 := Host.absf main_arg11
  let main_cst_18 : FVec F S_ .f32 := constant S_ .f32 0x7F800000#32
  let main_v50 : FVec F S40 .f32 := broadcastInDim S40 ![] bcast_S_S40 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x40 .f32) (main_arg11 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x40 .f32) (main_arg11 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S5000x128 : Shape := ⟨2, ![5000, 128]⟩
abbrev S1 : Shape := ⟨1, ![1]⟩
abbrev S1x40 : Shape := ⟨2, ![1, 40]⟩
abbrev S50000x40 : Shape := ⟨2, ![50000, 40]⟩

abbrev nBuf : Space → Nat
  | .hbm => 60
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x40, .f32⟩
  | .hbm, ⟨11, _⟩ => ⟨S40, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S_, .f32⟩
  | .hbm, ⟨26, _⟩ => ⟨S50000x128, .f32⟩
  | .hbm, ⟨27, _⟩ => ⟨S600000x1, .i32⟩
  | .hbm, ⟨28, _⟩ => ⟨S50000x128, .f32⟩
  | .hbm, ⟨29, _⟩ => ⟨S1x128, .f32⟩
  | .hbm, ⟨30, _⟩ => ⟨S1x128, .f32⟩
  | .hbm, ⟨31, _⟩ => ⟨S50000x128, .f32⟩
  | .hbm, ⟨32, _⟩ => ⟨S_, .i32⟩
  | .hbm, ⟨33, _⟩ => ⟨S600000, .i32⟩
  | .hbm, ⟨34, _⟩ => ⟨S600000, .i1⟩
  | .hbm, ⟨35, _⟩ => ⟨S_, .i32⟩
  | .hbm, ⟨36, _⟩ => ⟨S600000, .i32⟩
  | .hbm, ⟨37, _⟩ => ⟨S600000, .i32⟩
  | .hbm, ⟨38, _⟩ => ⟨S600000, .i32⟩
  | .hbm, ⟨39, _⟩ => ⟨S600000x1, .i32⟩
  | .hbm, ⟨40, _⟩ => ⟨S600000x128, .f32⟩
  | .hbm, ⟨41, _⟩ => ⟨S_, .f32⟩
  | .hbm, ⟨42, _⟩ => ⟨S50000x128, .f32⟩
  | .hbm, ⟨43, _⟩ => ⟨S600000x1, .i32⟩
  | .hbm, ⟨44, _⟩ => ⟨S50000x128, .f32⟩
  | .hbm, ⟨45, _⟩ => ⟨S1x128, .f32⟩
  | .hbm, ⟨46, _⟩ => ⟨S1x128, .f32⟩
  | .hbm, ⟨47, _⟩ => ⟨S_, .f32⟩
  | .hbm, ⟨48, _⟩ => ⟨S128x128, .f32⟩
  | .hbm, ⟨49, _⟩ => ⟨S_, .i32⟩
  | .hbm, ⟨50, _⟩ => ⟨S1, .i32⟩
  | .hbm, ⟨51, _⟩ => ⟨S128x128, .f32⟩
  | .hbm, ⟨52, _⟩ => ⟨S_, .f32⟩
  | .hbm, ⟨53, _⟩ => ⟨S1x128, .f32⟩
  | .hbm, ⟨54, _⟩ => ⟨S1x40, .f32⟩
  | .hbm, ⟨55, _⟩ => ⟨S_, .i32⟩
  | .hbm, ⟨56, _⟩ => ⟨S1, .i32⟩
  | .hbm, ⟨57, _⟩ => ⟨S1x128, .f32⟩
  | .hbm, ⟨58, _⟩ => ⟨S50000x128, .f32⟩
  | .hbm, ⟨59, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_1 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_cst_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S128x128 : S_.BroadcastsInDim S128x128 (![] : Fin 0 → Fin S128x128.rank)
  bcast_S_S1 : S_.BroadcastsInDim S1 (![] : Fin 0 → Fin S1.rank)
  bcast_S_S1x128 : S_.BroadcastsInDim S1x128 (![] : Fin 0 → Fin S1x128.rank)
  shapeCasts_S40_S1x40 : S40.ShapeCasts S1x40
  shapeCasts_S128x128_S128x128 : S128x128.ShapeCasts S128x128
  slices_S50000x128_S50000x40_0_0 : S50000x128.Slices ![0, 0] S50000x40
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  scatter_S128x128_S1_S128x40_01_n_1_0_wf : ScatterDims.WF S128x128 S1 S128x40 [0, 1] [] [1] 0
  scatter_S1x128_S1_S1x40_01_n_1_0_wf : ScatterDims.WF S1x128 S1 S1x40 [0, 1] [] [1] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x128.size a ≤ S50000x128.size a
  hwx1_8 : ∀ i : grid1.Coords, EltTy.bits .f32 = 32 ∨ (Rect.block (s := S50000x128) S5000x128.size (cc1_transform_8 i) (hinb1_8 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S128x128_S1_S128x40_01_n_1_0 : ScatterDims S128x128 S1 S128x40 where
  updateWindowDims := [0, 1]
  insertedWindowDims := []
  scatterDimsToOperandDims := [1]
  indexVectorDim := 0
  wf := scatter_S128x128_S1_S128x40_01_n_1_0_wf
def scatter_S1x128_S1_S1x40_01_n_1_0 : ScatterDims S1x128 S1 S1x40 where
  updateWindowDims := [0, 1]
  insertedWindowDims := []
  scatterDimsToOperandDims := [1]
  indexVectorDim := 0
  wf := scatter_S1x128_S1_S1x40_01_n_1_0_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v35) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v36) S5000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S50000x40 : Shape := ⟨2, ![50000, 40]⟩
abbrev S1x40 : Shape := ⟨2, ![1, 40]⟩

abbrev nBuf : Space → Nat
  | .hbm => 73
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x40, .f32⟩
  | .hbm, ⟨11, _⟩ => ⟨S40, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S_, .f32⟩
  | .hbm, ⟨26, _⟩ => ⟨S50000x128, .f32⟩
  | .hbm, ⟨27, _⟩ => ⟨S600000x1, .i32⟩
  | .hbm, ⟨28, _⟩ => ⟨S50000x128, .f32⟩
  | .hbm, ⟨29, _⟩ => ⟨S50000x128, .f32⟩
  | .hbm, ⟨30, _⟩ => ⟨S50000x128, .f32⟩
  | .hbm, ⟨31, _⟩ => ⟨S1x128, .f32⟩
  | .hbm, ⟨32, _⟩ => ⟨S50000x128, .f32⟩
  | .hbm, ⟨33, _⟩ => ⟨S50000x128, .f32⟩
  | .hbm, ⟨34, _⟩ => ⟨S_, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S_, .f32⟩
  | .hbm, ⟨42, _⟩ => ⟨S50000x128, .f32⟩
  | .hbm, ⟨43, _⟩ => ⟨S50000x128, .f32⟩
  | .hbm, ⟨44, _⟩ => ⟨S_, .i32⟩
  | .hbm, ⟨45, _⟩ => ⟨S600000, .i32⟩
  | .hbm, ⟨46, _⟩ => ⟨S600000, .i1⟩
  | .hbm, ⟨47, _⟩ => ⟨S_, .i32⟩
  | .hbm, ⟨48, _⟩ => ⟨S600000, .i32⟩
  | .hbm, ⟨49, _⟩ => ⟨S600000, .i32⟩
  | .hbm, ⟨50, _⟩ => ⟨S600000, .i32⟩
  | .hbm, ⟨51, _⟩ => ⟨S600000x1, .i32⟩
  | .hbm, ⟨52, _⟩ => ⟨S600000x128, .f32⟩
  | .hbm, ⟨53, _⟩ => ⟨S_, .f32⟩
  | .hbm, ⟨54, _⟩ => ⟨S50000x128, .f32⟩
  | .hbm, ⟨55, _⟩ => ⟨S600000x1, .i32⟩
  | .hbm, ⟨56, _⟩ => ⟨S50000x128, .f32⟩
  | .hbm, ⟨57, _⟩ => ⟨S50000x128, .f32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S_, .f32⟩
  | .hbm, ⟨63, _⟩ => ⟨S50000x128, .f32⟩
  | .hbm, ⟨64, _⟩ => ⟨S50000x128, .f32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S50000x40, .f32⟩
  | .hbm, ⟨70, _⟩ => ⟨S1x40, .f32⟩
  | .hbm, ⟨71, _⟩ => ⟨S50000x40, .f32⟩
  | .hbm, ⟨72, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call0_cst : Ref sig .tc := ⟨.hbm, 34, rfl⟩
abbrev main_call0_v0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call1_cst : Ref sig .tc := ⟨.hbm, 41, rfl⟩
abbrev main_call1_v0 : Ref sig .tc := ⟨.hbm, 42, rfl⟩
abbrev main_v24 : Ref sig .tc := ⟨.hbm, 43, rfl⟩
abbrev main_c_1 : Ref sig .tc := ⟨.hbm, 44, rfl⟩
abbrev main_v25 : Ref sig .tc := ⟨.hbm, 45, rfl⟩
abbrev main_v26 : Ref sig .tc := ⟨.hbm, 46, rfl⟩
abbrev main_c_2 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_call2_cst : Ref sig .tc := ⟨.hbm, 62, rfl⟩
abbrev main_call2_v0 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.HostK.lean ====
/-
  What the host operations around the two regions compute, as functions of the buffers they read.

  Before the first region @main slices the two rows of the edge list into the source ids and the destination ids, wraps
  negative source ids by adding the number of nodes, gathers the rows of x at the wrapped source ids, and adds each
  gathered row into the row of an all-zero array named by its destination id: the aggregated array. Between the regions
  it does the same to the first region's output, and pads the head's weights and bias with zeros to width 128. After
  the second region it keeps the first 40 columns. None of these stretches writes an argument, and the ids computed by the
  first stretch are still in place when the second stretch reads them.
-/
import proofs.«180180_j5153960755352_1_alg».proof.Proof.Gen.KernelIdeal.Launch
import Idealize.ShloMosaic.Lib.StableHlo.Run

set_option maxRecDepth 16384

noncomputable section

namespace Cert.KernelIdeal.HostK

open Idealize.ShloMosaic Idealize.ShloMosaic.TcCoe Idealize.SL.Sem Idealize.ShloMosaic.StableHlo
open Cert.KernelIdeal Cert.KernelIdeal.Gen

variable {F : FTy → Type} [FloatOps F]

/-- The source ids: row 0 of the edge list. -/
def srcIds (e : (⟨S2x600000, .i32⟩ : BufTy).Contents (Elt F)) : (⟨S600000, .i32⟩ : BufTy).Contents (Elt F) :=
  shapeCast _ (extractStridedSlice S1x600000 ![0, 0] e slices_S2x600000_S1x600000_0_0) shapeCasts_S1x600000_S600000

/-- The destination ids: row 1 of the edge list. -/
def dstIds (e : (⟨S2x600000, .i32⟩ : BufTy).Contents (Elt F)) : (⟨S600000, .i32⟩ : BufTy).Contents (Elt F) :=
  shapeCast _ (extractStridedSlice S1x600000 ![1, 0] e slices_S2x600000_S1x600000_1_0) shapeCasts_S1x600000_S600000

/-- The aggregation of the rows of `x`: gathered at the source ids (a negative id wrapped by the number of nodes), each
    added into the row of an all-zero array that its destination id names. -/
def aggOf (x : (⟨S50000x128, .f32⟩ : BufTy).Contents (Elt F)) (s d : (⟨S600000, .i32⟩ : BufTy).Contents (Elt F)) :
    (⟨S50000x128, .f32⟩ : BufTy).Contents (Elt F) :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 d)
    (Host.gather gather_S50000x128_S600000x1_S600000x128_1_0_n_n_0_1_1128 x
      (broadcastInDim S600000x1 ![0] bcast_S600000_S600000x1_0
        (select (cmpi .slt s (broadcastInDim S600000 ![] bcast_S_S600000 (constantI S_ 32 0#32)))
          (addi s (broadcastInDim S600000 ![] bcast_S_S600000 (constantI S_ 32 50000#32))) s)))

variable (W : Valuation τ sig (Elt F))

/-! ## The first stretch -/

theorem ops0_v1 : after hostOps0 W (Proc.devRef .tc main_v1) = srcIds (W (Proc.devRef .tc main_arg1)) := by
  after_results_simp <;> rfl
theorem ops0_v3 : after hostOps0 W (Proc.devRef .tc main_v3) = dstIds (W (Proc.devRef .tc main_arg1)) := by
  after_results_simp <;> rfl
theorem ops0_v13 : after hostOps0 W (Proc.devRef .tc main_v13)
    = aggOf (W (Proc.devRef .tc main_arg0)) (srcIds (W (Proc.devRef .tc main_arg1))) (dstIds (W (Proc.devRef .tc main_arg1))) := by
  after_results_simp <;> rfl
theorem ops0_v14 : after hostOps0 W (Proc.devRef .tc main_v14) = shapeCast _ (W (Proc.devRef .tc main_arg3)) shapeCasts_S128_S1x128 := by
  after_results_simp <;> rfl
theorem ops0_v15 : after hostOps0 W (Proc.devRef .tc main_v15) = shapeCast _ (W (Proc.devRef .tc main_arg5)) shapeCasts_S128_S1x128 := by
  after_results_simp <;> rfl

theorem ops0_arg0 : after hostOps0 W (Proc.devRef .tc main_arg0) = W (Proc.devRef .tc main_arg0) := by
  after_results_simp <;> rfl
theorem ops0_arg2 : after hostOps0 W (Proc.devRef .tc main_arg2) = W (Proc.devRef .tc main_arg2) := by
  after_results_simp <;> rfl
theorem ops0_arg4 : after hostOps0 W (Proc.devRef .tc main_arg4) = W (Proc.devRef .tc main_arg4) := by
  after_results_simp <;> rfl
theorem ops0_arg1 : after hostOps0 W (Proc.devRef .tc main_arg1) = W (Proc.devRef .tc main_arg1) := by
  after_results_simp <;> rfl
theorem ops0_arg6 : after hostOps0 W (Proc.devRef .tc main_arg6) = W (Proc.devRef .tc main_arg6) := by
  after_results_simp <;> rfl
theorem ops0_arg7 : after hostOps0 W (Proc.devRef .tc main_arg7) = W (Proc.devRef .tc main_arg7) := by
  after_results_simp <;> rfl
theorem ops0_arg8 : after hostOps0 W (Proc.devRef .tc main_arg8) = W (Proc.devRef .tc main_arg8) := by
  after_results_simp <;> rfl
theorem ops0_arg9 : after hostOps0 W (Proc.devRef .tc main_arg9) = W (Proc.devRef .tc main_arg9) := by
  after_results_simp <;> rfl
theorem ops0_arg10 : after hostOps0 W (Proc.devRef .tc main_arg10) = W (Proc.devRef .tc main_arg10) := by
  after_results_simp <;> rfl
theorem ops0_arg11 : after hostOps0 W (Proc.devRef .tc main_arg11) = W (Proc.devRef .tc main_arg11) := by
  after_results_simp <;> rfl

/-! ## The second stretch -/

/-- The head's weights padded with zero columns to width 128. -/
def padHeadW (w : (⟨S128x40, .f32⟩ : BufTy).Contents (Elt F)) : (⟨S128x128, .f32⟩ : BufTy).Contents (Elt F) :=
  Host.scatter scatter_S128x128_S1_S128x40_01_n_1_0 (fun _ b => b)
    (broadcastInDim S128x128 ![] bcast_S_S128x128 (constant S_ .f32 0x00000000#32))
    (broadcastInDim S1 ![] bcast_S_S1 (constantI S_ 32 0#32)) w

/-- The head's bias, as a row, padded with zeros to width 128. -/
def padHeadB (b : (⟨S40, .f32⟩ : BufTy).Contents (Elt F)) : (⟨S1x128, .f32⟩ : BufTy).Contents (Elt F) :=
  Host.scatter scatter_S1x128_S1_S1x40_01_n_1_0 (fun _ b => b)
    (broadcastInDim S1x128 ![] bcast_S_S1x128 (constant S_ .f32 0x00000000#32))
    (broadcastInDim S1 ![] bcast_S_S1 (constantI S_ 32 0#32)) (shapeCast _ b shapeCasts_S40_S1x40)

theorem ops1_v16 : after hostOps1 W (Proc.devRef .tc main_v16) = W (Proc.devRef .tc main_v16) := by
  after_results_simp <;> rfl
theorem ops1_v26 : after hostOps1 W (Proc.devRef .tc main_v26)
    = aggOf (W (Proc.devRef .tc main_v16)) (W (Proc.devRef .tc main_v1)) (W (Proc.devRef .tc main_v3)) := by
  after_results_simp <;> rfl
theorem ops1_arg6 : after hostOps1 W (Proc.devRef .tc main_arg6) = W (Proc.devRef .tc main_arg6) := by
  after_results_simp <;> rfl
theorem ops1_arg8 : after hostOps1 W (Proc.devRef .tc main_arg8) = W (Proc.devRef .tc main_arg8) := by
  after_results_simp <;> rfl
theorem ops1_v27 : after hostOps1 W (Proc.devRef .tc main_v27) = shapeCast _ (W (Proc.devRef .tc main_arg7)) shapeCasts_S128_S1x128 := by
  after_results_simp <;> rfl
theorem ops1_v28 : after hostOps1 W (Proc.devRef .tc main_v28) = shapeCast _ (W (Proc.devRef .tc main_arg9)) shapeCasts_S128_S1x128 := by
  after_results_simp <;> rfl
theorem ops1_v31 : after hostOps1 W (Proc.devRef .tc main_v31) = padHeadW (W (Proc.devRef .tc main_arg10)) := by
  after_results_simp <;> rfl
theorem ops1_v35 : after hostOps1 W (Proc.devRef .tc main_v35) = padHeadB (W (Proc.devRef .tc main_arg11)) := by
  after_results_simp <;> rfl

/-! ## The closing slice -/

theorem ops2_v37 : after hostOps2 W (Proc.devRef .tc main_v37)
    = extractStridedSlice S50000x40 ![0, 0] (W (Proc.devRef .tc main_v36)) slices_S50000x128_S50000x40_0_0 := by
  after_results_simp <;> rfl

end Cert.KernelIdeal.HostK

end
-- ==== Proof.Spec.lean ====
/-
  What the two programs compute, written once, row by row, over the extended reals.

  A node's features are a row of 128 numbers. One affine layer sends a row z to the row whose entry j is
  (the sum over q of z q * W (q, j)) + b j; relu replaces every entry by its maximum with zero. The first graph
  convolution sends node i's row x_i and its aggregated neighbour row a_i to

      relu (affine (relu (affine (x_i + a_i) Wa ba)) Wb bb),

  the second one followed by the linear head to

      affine (affine (relu (affine (h_i + a_i) Wa ba)) Wb bb) Wf bf,

  with the head's width N free: the kernel computes it 128 wide on a zero-padded head and keeps the first 40 columns,
  the reference computes it 40 wide. Nothing here uses a law of the extended reals: both programs perform these same sums
  of products in the same arrangement, so only the spelling of indices differs between them.
-/
import Idealize.ShloMosaic.PureOps.Ideal.Laws
import Idealize.ShloMosaic.Lib.ValueIdx

noncomputable section

open scoped BigOperators

namespace Cert.Spec

open Idealize.ShloMosaic Idealize.ShloMosaic.ValueIdx

/-- An R × C array of ideal values. -/
abbrev Mat (R C : Nat) : Type := FVec Ideal ⟨2, ![R, C]⟩ .f32

/-- The zero both programs compare against in their relu: the all-zero 32-bit pattern read as a number. -/
def zero : Ideal .f32 := Ideal.ofBits .f32 0x00000000#32

/-- One affine layer applied to a row: entry j is the sum over q of z q * W (q, j), plus b j. -/
def affine {K N : Nat} (z : Fin K → Ideal .f32) (W : Mat K N) (b : Fin N → Ideal .f32) : Fin N → Ideal .f32 :=
  fun j => (∑ q : Fin K, z q * W (ix2 q j)) + b j

/-- Every entry replaced by its maximum with zero. -/
def relu {N : Nat} (v : Fin N → Ideal .f32) : Fin N → Ideal .f32 := fun j => max (v j) zero

/-- The first convolution on one node: its own row plus its aggregated row through two affine layers, each followed by
    relu. -/
def conv1Row (xr ar : Fin 128 → Ideal .f32) (Wa : Mat 128 128) (ba : Fin 128 → Ideal .f32) (Wb : Mat 128 128)
    (bb : Fin 128 → Ideal .f32) : Fin 128 → Ideal .f32 :=
  relu (affine (relu (affine (fun q => xr q + ar q) Wa ba)) Wb bb)

/-- The second convolution and the head on one node: its row plus its aggregated row through an affine layer and relu, a
    second affine layer, and the head's affine layer of width N. -/
def conv2Row {N : Nat} (hr ar : Fin 128 → Ideal .f32) (Wa : Mat 128 128) (ba : Fin 128 → Ideal .f32) (Wb : Mat 128 128)
    (bb : Fin 128 → Ideal .f32) (Wf : Mat 128 N) (bf : Fin N → Ideal .f32) : Fin N → Ideal .f32 :=
  affine (affine (relu (affine (fun q => hr q + ar q) Wa ba)) Wb bb) Wf bf

/-- The first convolution on all R nodes: entry (i, j) is entry j of node i's row. -/
def conv1 {R : Nat} (x agg : Mat R 128) (Wa : Mat 128 128) (ba : Fin 128 → Ideal .f32) (Wb : Mat 128 128)
    (bb : Fin 128 → Ideal .f32) : Mat R 128 :=
  fun i => conv1Row (fun q => x (ix2 (i 0) q)) (fun q => agg (ix2 (i 0) q)) Wa ba Wb bb (i 1)

/-- The second convolution and the head on all R nodes. -/
def conv2 {R N : Nat} (h agg : Mat R 128) (Wa : Mat 128 128) (ba : Fin 128 → Ideal .f32) (Wb : Mat 128 128)
    (bb : Fin 128 → Ideal .f32) (Wf : Mat 128 N) (bf : Fin N → Ideal .f32) : Mat R N :=
  fun i => conv2Row (fun q => h (ix2 (i 0) q)) (fun q => agg (ix2 (i 0) q)) Wa ba Wb bb Wf bf (i 1)

/-- Row r of the first convolution depends on row r of its two row arguments only. -/
theorem conv1_apply {R : Nat} (x agg : Mat R 128) (Wa : Mat 128 128) (ba : Fin 128 → Ideal .f32) (Wb : Mat 128 128)
    (bb : Fin 128 → Ideal .f32) (r : Fin R) (j : Fin 128) :
    conv1 x agg Wa ba Wb bb (ix2 r j)
      = conv1Row (fun q => x (ix2 r q)) (fun q => agg (ix2 r q)) Wa ba Wb bb j := rfl

theorem conv2_apply {R N : Nat} (h agg : Mat R 128) (Wa : Mat 128 128) (ba : Fin 128 → Ideal .f32) (Wb : Mat 128 128)
    (bb : Fin 128 → Ideal .f32) (Wf : Mat 128 N) (bf : Fin N → Ideal .f32) (r : Fin R) (j : Fin N) :
    conv2 h agg Wa ba Wb bb Wf bf (ix2 r j)
      = conv2Row (fun q => h (ix2 r q)) (fun q => agg (ix2 r q)) Wa ba Wb bb Wf bf j := rfl

/-- The head computed N wide and read at one of its first N' columns is the head computed N' wide, when the wide head's
    weights and bias agree with the narrow ones on those columns: the column j of an affine layer reads column j of its
    weights and entry j of its bias, nothing else of them. -/
theorem conv2_narrow {R N N' : Nat} (hN : N' ≤ N) (h agg : Mat R 128) (Wa : Mat 128 128) (ba : Fin 128 → Ideal .f32)
    (Wb : Mat 128 128) (bb : Fin 128 → Ideal .f32) (Wf : Mat 128 N) (bf : Fin N → Ideal .f32) (Wf' : Mat 128 N')
    (bf' : Fin N' → Ideal .f32) (hW : ∀ (q : Fin 128) (j : Fin N'), Wf (ix2 q (j.castLE hN)) = Wf' (ix2 q j))
    (hb : ∀ j : Fin N', bf (j.castLE hN) = bf' j) (r : Fin R) (j : Fin N') :
    conv2 h agg Wa ba Wb bb Wf bf (ix2 r (j.castLE hN)) = conv2 h agg Wa ba Wb bb Wf' bf' (ix2 r j) := by
  rw [conv2_apply, conv2_apply]
  unfold conv2Row
  show (∑ q : Fin 128, _ * Wf (ix2 q (j.castLE hN))) + bf (j.castLE hN) = (∑ q : Fin 128, _ * Wf' (ix2 q j)) + bf' j
  rw [hb j]
  exact congrArg (· + bf' j) (Finset.sum_congr rfl fun q _ => by rw [hW q j])

end Cert.Spec

end
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.Region0.lean ====
/-
  The first convolution's region, read as a value. The region walks the 50000 nodes in ten blocks of 5000 rows; at each
  block the body adds the block of x to the block of the aggregated array, multiplies by the first weight matrix, adds
  the first bias row, takes relu, multiplies by the second weight matrix, adds the second bias row and takes relu again,
  and writes the 5000 × 128 result back to the same rows of the output. A matrix product's row r reads row r of its
  left factor only, so each written row is Spec.conv1Row of the same row of the two input arrays; the ten blocks tile the
  output, hence the whole output array is Spec.conv1 of the arrays the region is entered with.
-/
import proofs.«180180_j5153960755352_1_alg».proof.Proof.Gen.KernelIdeal.Frame
import proofs.«180180_j5153960755352_1_alg».proof.Proof.Spec
import proofs.«180180_j5153960755352_1_alg».proof.Proof.LibDotPlain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The body's arithmetic at one entry -/

/-- The printed dimension numbers of the body's two products are those of the plain 5000 × 128 by 128 × 128 product. -/
theorem dims_plain : dot_S5000x128_S128x128_S5000x128_1_0_0_1_n_n = DotDims.plain 5000 128 128 := rfl

/-- One affine layer of the body at entry (p, j): the product of a 5000 × 128 block with a 128 × 128 weight array,
    accumulated into zeros, plus the bias row broadcast over the rows, is the affine layer of row p of the block. The
    narrowing of the two factors changes no ideal value. -/
theorem layer_apply (z : FVec Ideal S5000x128 .f32) (W : Vec Ideal S128x128 .f32) (b : Vec Ideal S1x128 .f32)
    (p : Fin 5000) (j : Fin 128) :
    matmul (DotDims.plain 5000 128 128) none (truncf .bf16 z bitsLt_bf16_f32) (truncf .bf16 W bitsLt_bf16_f32)
          (constant S5000x128 .f32 0x00000000#32) (ix2 p j)
        + broadcastTo S5000x128 b broadcasts_S1x128_S5000x128 (ix2 p j)
      = Cert.Spec.affine (fun q => z (ix2 p q)) W (fun k => b (ix2 0 k)) j := by
  exact congrArg₂ (· + ·) (Cert.LibDotPlain.matmul_zero_plain 5000 128 128 none _ _ p j)
    (broadcastTo_1b_ab_apply b _ p j)

/-- The first layer followed by relu, at entry (p, q): relu of the affine layer of the sum of row p of the two row
    blocks. -/
theorem hidden_apply (x0 x1 : Vec Ideal S5000x128 .f32) (x2 : Vec Ideal S128x128 .f32) (x3 : Vec Ideal S1x128 .f32)
    (p : Fin 5000) (q : Fin 128) :
    maximumf
        (addf
          (matmul (DotDims.plain 5000 128 128) none (truncf .bf16 (addf x0 x1) bitsLt_bf16_f32)
            (truncf .bf16 x2 bitsLt_bf16_f32) (constant S5000x128 .f32 0x00000000#32))
          (broadcastTo S5000x128 x3 broadcasts_S1x128_S5000x128))
        (broadcast S5000x128 (FloatOps.ofBits .f32 0x00000000#32)) (ix2 p q)
      = Cert.Spec.relu (Cert.Spec.affine (fun q => x0 (ix2 p q) + x1 (ix2 p q)) x2 (fun k => x3 (ix2 0 k))) q := by
  rw [maximumf_apply, addf_apply, broadcast_apply, layer_apply]
  rfl

/-- Entry (p, j) of what the body stores is entry j of the first convolution's row built from row p of its two row
    blocks: both products read row p of their left factor only, and the bias rows are broadcast over the rows. -/
theorem pay_apply (x0 x1 : Vec Ideal S5000x128 .f32) (x2 : Vec Ideal S128x128 .f32) (x3 : Vec Ideal S1x128 .f32)
    (x4 : Vec Ideal S128x128 .f32) (x5 : Vec Ideal S1x128 .f32) (p : Fin 5000) (j : Fin 128) :
    k0_pay1 x0 x1 x2 x3 x4 x5 (ix2 p j)
      = Cert.Spec.conv1Row (fun q => x0 (ix2 p q)) (fun q => x1 (ix2 p q)) x2 (fun k => x3 (ix2 0 k)) x4
          (fun k => x5 (ix2 0 k)) j := by
  unfold k0_pay1
  simp only [dims_plain, shapeCast_self]
  rw [maximumf_apply, addf_apply, broadcast_apply, layer_apply]
  simp only [hidden_apply]
  rfl

variable (V : (c : Dev nD) → (b : Ref sig .tc) → Buf (Elt Ideal) ((c : Thread nD τ).loc b))

/-! ## What one grid point writes back -/

theorem hz : (![0, 0] : Fin 2 → Nat) = fun _ => 0 := funext fun a => by fin_cases a <;> rfl

/-- The body's arithmetic at any index of the block, the index not yet split into its row and column. -/
theorem pay_apply' (x0 x1 : Vec Ideal S5000x128 .f32) (x2 : Vec Ideal S128x128 .f32) (x3 : Vec Ideal S1x128 .f32)
    (x4 : Vec Ideal S128x128 .f32) (x5 : Vec Ideal S1x128 .f32) (y : S5000x128.Idx) :
    k0_pay1 x0 x1 x2 x3 x4 x5 y
      = Cert.Spec.conv1Row (fun q => x0 (ix2 (y 0) q)) (fun q => x1 (ix2 (y 0) q)) x2 (fun k => x3 (ix2 0 k)) x4
          (fun k => x5 (ix2 0 k)) (y 1) := by
  exact (congrArg (k0_pay1 x0 x1 x2 x3 x4 x5) (eq_ix2 y)).trans (pay_apply x0 x1 x2 x3 x4 x5 (y 0) (y 1))

/-- The printed index maps over the ten grid points: the two row windows move with the output window, whose block row
    is the point's number; every other block index is zero. -/
theorem idx_facts : ∀ t : Fin cfg0.N,
    win0_6.index t (0 : Fin 2) = t.val ∧ win0_6.index t (1 : Fin 2) = 0
    ∧ win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- What point t writes back is block t of the first convolution of the arrays the region is entered with. -/
theorem flushed_eq (c : Dev nD) (t : Fin cfg0.N) :
    (dat0 (F := Ideal) V c).flushed 6 t
      = ((cfg0.win 6).blk t).view.read (Elt Ideal)
          (Cert.Spec.conv1 (R := 50000) (V c main_arg0) (V c main_v13) (V c main_arg2)
            (fun k => (V c main_v14 : FVec Ideal ⟨2, ![1, 128]⟩ .f32) (ix2 0 k)) (V c main_arg4)
            (fun k => (V c main_v15 : FVec Ideal ⟨2, ![1, 128]⟩ .f32) (ix2 0 k))) := by
  show (cfg0.win 6).cut (grid0.coords t) ((dat0 V c).after 6 t) = _
  rw [after0_6]
  unfold out0_6
  rw [View.canon_unit_zero hz]
  simp only [View.ld_unit_zero (S := S5000x128) hz, View.ld_unit_zero (S := S128x128) hz,
    View.ld_unit_zero (S := S1x128) hz]
  funext y
  refine (pay_apply' _ _ _ _ _ _ y).trans ?_
  obtain ⟨e60, e61, e00, e01, e10, e11, e20, e21, e30, e31, e40, e41, e50, e51⟩ := idx_facts t
  show _ = Cert.Spec.conv1Row
      (fun q => (V c main_arg0 : Cert.Spec.Mat 50000 128) (ix2 ((((cfg0.win 6).blk t).view.emb y) 0) q))
      (fun q => (V c main_v13 : Cert.Spec.Mat 50000 128) (ix2 ((((cfg0.win 6).blk t).view.emb y) 0) q))
      (V c main_arg2) (fun k => (V c main_v14 : FVec Ideal ⟨2, ![1, 128]⟩ .f32) (ix2 0 k)) (V c main_arg4)
      (fun k => (V c main_v15 : FVec Ideal ⟨2, ![1, 128]⟩ .f32) (ix2 0 k)) ((((cfg0.win 6).blk t).view.emb y) 1)
  have i0 : ∀ q : Fin 128, ((cfg0.win 0).blk t).view.emb (ix2 (y 0) q)
      = (ix2 ((((cfg0.win 6).blk t).view.emb y) 0) q : S50000x128.Idx) := fun q => by
    funext a; apply Fin.ext
    match a with
    | ⟨0, _⟩ => show win0_0.index t (0 : Fin 2) * 5000 + 1 * (y 0).val = win0_6.index t (0 : Fin 2) * 5000 + 1 * (y 0).val; omega
    | ⟨1, _⟩ => show win0_0.index t (1 : Fin 2) * 128 + 1 * q.val = q.val; omega
  have i1 : ∀ q : Fin 128, ((cfg0.win 1).blk t).view.emb (ix2 (y 0) q)
      = (ix2 ((((cfg0.win 6).blk t).view.emb y) 0) q : S50000x128.Idx) := fun q => by
    funext a; apply Fin.ext
    match a with
    | ⟨0, _⟩ => show win0_1.index t (0 : Fin 2) * 5000 + 1 * (y 0).val = win0_6.index t (0 : Fin 2) * 5000 + 1 * (y 0).val; omega
    | ⟨1, _⟩ => show win0_1.index t (1 : Fin 2) * 128 + 1 * q.val = q.val; omega
  have i2 : ∀ z : S128x128.Idx, ((cfg0.win 2).blk t).view.emb z = z := fun z => by
    funext a; apply Fin.ext
    match a with
    | ⟨0, _⟩ => show win0_2.index t (0 : Fin 2) * 128 + 1 * (z 0).val = (z 0).val; omega
    | ⟨1, _⟩ => show win0_2.index t (1 : Fin 2) * 128 + 1 * (z 1).val = (z 1).val; omega
  have i3 : ∀ z : S1x128.Idx, ((cfg0.win 3).blk t).view.emb z = z := fun z => by
    funext a; apply Fin.ext
    match a with
    | ⟨0, _⟩ => show win0_3.index t (0 : Fin 2) * 1 + 1 * (z 0).val = (z 0).val; omega
    | ⟨1, _⟩ => show win0_3.index t (1 : Fin 2) * 128 + 1 * (z 1).val = (z 1).val; omega
  have i4 : ∀ z : S128x128.Idx, ((cfg0.win 4).blk t).view.emb z = z := fun z => by
    funext a; apply Fin.ext
    match a with
    | ⟨0, _⟩ => show win0_4.index t (0 : Fin 2) * 128 + 1 * (z 0).val = (z 0).val; omega
    | ⟨1, _⟩ => show win0_4.index t (1 : Fin 2) * 128 + 1 * (z 1).val = (z 1).val; omega
  have i5 : ∀ z : S1x128.Idx, ((cfg0.win 5).blk t).view.emb z = z := fun z => by
    funext a; apply Fin.ext
    match a with
    | ⟨0, _⟩ => show win0_5.index t (0 : Fin 2) * 1 + 1 * (z 0).val = (z 0).val; omega
    | ⟨1, _⟩ => show win0_5.index t (1 : Fin 2) * 128 + 1 * (z 1).val = (z 1).val; omega
  have h0 : ∀ q : Fin 128, iblk0 V c 0 t (ix2 (y 0) q)
      = (V c main_arg0 : Cert.Spec.Mat 50000 128) (ix2 ((((cfg0.win 6).blk t).view.emb y) 0) q) :=
    fun q => congrArg (V c main_arg0) (i0 q)
  have h1 : ∀ q : Fin 128, iblk0 V c 1 t (ix2 (y 0) q)
      = (V c main_v13 : Cert.Spec.Mat 50000 128) (ix2 ((((cfg0.win 6).blk t).view.emb y) 0) q) :=
    fun q => congrArg (V c main_v13) (i1 q)
  have h2 : iblk0 V c 2 t = V c main_arg2 := funext fun z => congrArg (V c main_arg2) (i2 z)
  have h3 : iblk0 V c 3 t = V c main_v14 := funext fun z => congrArg (V c main_v14) (i3 z)
  have h4 : iblk0 V c 4 t = V c main_arg4 := funext fun z => congrArg (V c main_arg4) (i4 z)
  have h5 : iblk0 V c 5 t = V c main_v15 := funext fun z => congrArg (V c main_v15) (i5 z)
  have hc : (y 1 : Fin 128) = (((cfg0.win 6).blk t).view.emb y) 1 := by
    apply Fin.ext
    show (y 1).val = win0_6.index t (1 : Fin 2) * 128 + 1 * (y 1).val; omega
  simp only [h0, h1, h2, h3, h4, h5]
  exact congrArg _ hc

/-! ## The ten blocks tile the output -/

/-- An index of the output array is in point t's block iff each coordinate is in the block's range on its axis. -/
theorem mem_blk (t : Fin cfg0.N) (i : S50000x128.Idx) :
    i ∈ ((cfg0.win 6).blk t).view.set
      ↔ ∀ a : Fin 2, win0_6.index t a * S5000x128.size a ≤ (i a).val
          ∧ (i a).val < win0_6.index t a * S5000x128.size a + S5000x128.size a := by
  show i ∈ ((View.whole main_v16).slice (win0_6.rect t)).set ↔ _
  rw [View.set_slice_whole, Rect.mem_set_unit]
  exact Iff.rfl

/-- Row r of the output lies in the block of point r / 5000, and every point writes its block back. -/
theorem cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := rfl
  have ht : (i 0).val / 5000 < cfg0.N := by rw [hN]; omega
  obtain ⟨e60, e61, -⟩ := idx_facts ⟨(i 0).val / 5000, ht⟩
  refine ⟨⟨(i 0).val / 5000, ht⟩, flush0_6 _, ?_⟩
  rw [mem_blk]
  intro a
  match a with
  | ⟨0, _⟩ =>
    show win0_6.index ⟨(i 0).val / 5000, ht⟩ (0 : Fin 2) * 5000 ≤ (i 0).val
      ∧ (i 0).val < win0_6.index ⟨(i 0).val / 5000, ht⟩ (0 : Fin 2) * 5000 + 5000
    rw [e60]; show (i 0).val / 5000 * 5000 ≤ (i 0).val ∧ (i 0).val < (i 0).val / 5000 * 5000 + 5000; omega
  | ⟨1, _⟩ =>
    show win0_6.index ⟨(i 0).val / 5000, ht⟩ (1 : Fin 2) * 128 ≤ (i 1).val
      ∧ (i 1).val < win0_6.index ⟨(i 0).val / 5000, ht⟩ (1 : Fin 2) * 128 + 128
    rw [e61]; omega

/-! ## The whole output array -/

/-- After region 0 its output array holds the first convolution of the arrays the region was entered with. -/
theorem arr0 (c : Dev nD) :
    (dat0 (F := Ideal) V c).arrAt 6 cfg0.N
      = Cert.Spec.conv1 (R := 50000) (V c main_arg0) (V c main_v13) (V c main_arg2)
          (fun k => (V c main_v14 : FVec Ideal ⟨2, ![1, 128]⟩ .f32) (ix2 0 k)) (V c main_arg4)
          (fun k => (V c main_v15 : FVec Ideal ⟨2, ![1, 128]⟩ .f32) (ix2 0 k)) :=
  (dat0 V c).arrAt_eq_of_cover 6 _ (fun t _ => flushed_eq V c t) cover

end Cert.KernelIdeal.Region0

end
-- ==== Proof.Region1.lean ====
/-
  The second convolution's region with the linear head, read as a value. As in the first region the 50000 nodes are
  walked in ten blocks of 5000 rows; at each block the body adds the block of h to the block of the aggregated array,
  applies an affine layer and relu, a second affine layer, and the head's affine layer on the 128-wide padded head, and
  writes the 5000 × 128 result back to the same rows. Each written row is Spec.conv2Row of the same row of the two input
  arrays; the ten blocks tile the output, hence the whole output array is Spec.conv2 (128 wide) of the arrays the region
  is entered with.
-/
import proofs.«180180_j5153960755352_1_alg».proof.Proof.Gen.KernelIdeal.Frame
import proofs.«180180_j5153960755352_1_alg».proof.Proof.Spec
import proofs.«180180_j5153960755352_1_alg».proof.Proof.LibDotPlain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The body's arithmetic at one entry -/

/-- The printed dimension numbers of the body's three products are those of the plain 5000 × 128 by 128 × 128 product. -/
theorem dot_eq : dot_S5000x128_S128x128_S5000x128_1_0_0_1_n_n = DotDims.plain 5000 128 128 := rfl

/-- A 1 × 128 bias row broadcast over the 5000 rows, read at (p, j), is the bias row's entry j. -/
theorem bias_apply (v : FVec Ideal S1x128 .f32) (p : Fin 5000) (j : Fin 128) :
    broadcastTo S5000x128 v broadcasts_S1x128_S5000x128 (ix2 p j) = v (ix2 0 j) := by
  refine broadcastTo_apply v _ (ix2 p j) (ix2 0 j) fun a => ?_
  match a with
  | ⟨0, _⟩ => rfl
  | ⟨1, _⟩ => rfl

/-- What the body stores, read at row p and column j, for any blocks it may be given: Spec.conv2Row of row p of the two
    row blocks, with the three weight blocks and the three bias rows. Over the extended reals the narrowing casts change
    nothing, a product accumulated into the all-zero array at (p, j) is the sum over q of the left factor at (p, q) times
    the right factor at (q, j), and the sums, the maxima with zero and the broadcast biases are read entry by entry. -/
theorem pay_apply (x0 x1 : Vec Ideal S5000x128 .f32) (x2 x4 x6 : Vec Ideal S128x128 .f32)
    (x3 x5 x7 : Vec Ideal S1x128 .f32) (p : Fin 5000) (j : Fin 128) :
    k1_pay1 x0 x1 x2 x3 x4 x5 x6 x7 (ix2 p j)
      = Cert.Spec.conv2Row (N := 128) (fun q => x0 (ix2 p q)) (fun q => x1 (ix2 p q)) x2 (fun k => x3 (ix2 0 k)) x4
          (fun k => x5 (ix2 0 k)) x6 (fun k => x7 (ix2 0 k)) j := by
  unfold k1_pay1
  simp only [dot_eq, shapeCast_self]
  simp only [addf_apply, Cert.LibDotPlain.matmul_zero_plain, truncf_apply, maximumf_apply, broadcast_apply, bias_apply]
  rfl

/-! ## What one block of rows writes back -/

theorem hz : (![0, 0] : Fin 2 → Nat) = fun _ => 0 := funext fun a => by fin_cases a <;> rfl

/-- The array the region is claimed to leave: the second convolution and the 128-wide head of the arrays it was entered
    with. -/
abbrev G (c : Dev nD) : Cert.Spec.Mat 50000 128 :=
  Cert.Spec.conv2 (R := 50000) (N := 128) (V c main_v16) (V c main_v26) (V c main_arg6)
          (fun k => (V c main_v27 : FVec Ideal ⟨2, ![1, 128]⟩ .f32) (ix2 0 k)) (V c main_arg8)
          (fun k => (V c main_v28 : FVec Ideal ⟨2, ![1, 128]⟩ .f32) (ix2 0 k)) (V c main_v31)
          (fun k => (V c main_v35 : FVec Ideal ⟨2, ![1, 128]⟩ .f32) (ix2 0 k))

/-- The index maps over the ten points: at point t the two row inputs and the output are at block (t, 0), the three
    weight arrays and the three bias rows at block (0, 0), that is, whole. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_8.index t (0 : Fin 2) = t.val ∧ win1_8.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

/-- At point t the body's result at (p, j) is the claimed array at (5000 t + p, j). The output block's entry (p, j) is
    the array's entry (5000 t + p, j); row p of each row input's block is row 5000 t + p of its array; each weight
    block and each bias block is its whole array. So the body's result, Spec.conv2Row of those rows, is
    Spec.conv2Row of row 5000 t + p of the two arrays: the claimed array's entry there. -/
theorem body_eq (c : Dev nD) (t : Fin cfg1.N) (p : Fin 5000) (j : Fin 128) :
    k1_pay1 (iblk1 V c 0 t) (iblk1 V c 1 t) (iblk1 V c 2 t) (iblk1 V c 3 t) (iblk1 V c 4 t) (iblk1 V c 5 t)
        (iblk1 V c 6 t) (iblk1 V c 7 t) (ix2 p j)
      = G V c (((cfg1.win 8).blk t).view.emb (ix2 p j)) := by
  rw [pay_apply]
  obtain ⟨e00, e01, e10, e11, e80, e81, e20, e21, e30, e31, e40, e41, e50, e51, e60, e61, e70, e71⟩ := idx_facts t
  have ht : t.val < 10 := t.isLt
  have hp : p.val < 5000 := p.isLt
  have hr : t.val * 5000 + p.val < 50000 := by omega
  have h8 : ((cfg1.win 8).blk t).view.emb (ix2 p j) = ix2 (⟨t.val * 5000 + p.val, hr⟩ : Fin 50000) j := by
    funext a; apply Fin.ext
    match a with
    | ⟨0, _⟩ => show win1_8.index t (0 : Fin 2) * 5000 + 1 * p.val = t.val * 5000 + p.val; omega
    | ⟨1, _⟩ => show win1_8.index t (1 : Fin 2) * 128 + 1 * j.val = j.val; omega
  rw [h8]
  show _ = Cert.Spec.conv2 _ _ _ _ _ _ _ _ (ix2 (⟨t.val * 5000 + p.val, hr⟩ : Fin 50000) j)
  rw [Cert.Spec.conv2_apply]
  have a0 : (fun q => iblk1 V c 0 t (ix2 p q)) = fun q => V c main_v16 (ix2 (⟨t.val * 5000 + p.val, hr⟩ : Fin 50000) q) := by
    funext q
    show V c main_v16 (((cfg1.win 0).blk t).view.emb (ix2 p q)) = _
    congr 1
    funext a; apply Fin.ext
    match a with
    | ⟨0, _⟩ => show win1_0.index t (0 : Fin 2) * 5000 + 1 * p.val = t.val * 5000 + p.val; omega
    | ⟨1, _⟩ => show win1_0.index t (1 : Fin 2) * 128 + 1 * q.val = q.val; omega
  have a1 : (fun q => iblk1 V c 1 t (ix2 p q)) = fun q => V c main_v26 (ix2 (⟨t.val * 5000 + p.val, hr⟩ : Fin 50000) q) := by
    funext q
    show V c main_v26 (((cfg1.win 1).blk t).view.emb (ix2 p q)) = _
    congr 1
    funext a; apply Fin.ext
    match a with
    | ⟨0, _⟩ => show win1_1.index t (0 : Fin 2) * 5000 + 1 * p.val = t.val * 5000 + p.val; omega
    | ⟨1, _⟩ => show win1_1.index t (1 : Fin 2) * 128 + 1 * q.val = q.val; omega
  have a2 : iblk1 V c 2 t = V c main_arg6 := by
    funext y
    show V c main_arg6 (((cfg1.win 2).blk t).view.emb y) = V c main_arg6 y
    congr 1
    funext a; apply Fin.ext
    match a with
    | ⟨0, _⟩ => show win1_2.index t (0 : Fin 2) * 128 + 1 * (y 0).val = (y 0).val; omega
    | ⟨1, _⟩ => show win1_2.index t (1 : Fin 2) * 128 + 1 * (y 1).val = (y 1).val; omega
  have a4 : iblk1 V c 4 t = V c main_arg8 := by
    funext y
    show V c main_arg8 (((cfg1.win 4).blk t).view.emb y) = V c main_arg8 y
    congr 1
    funext a; apply Fin.ext
    match a with
    | ⟨0, _⟩ => show win1_4.index t (0 : Fin 2) * 128 + 1 * (y 0).val = (y 0).val; omega
    | ⟨1, _⟩ => show win1_4.index t (1 : Fin 2) * 128 + 1 * (y 1).val = (y 1).val; omega
  have a6 : iblk1 V c 6 t = V c main_v31 := by
    funext y
    show V c main_v31 (((cfg1.win 6).blk t).view.emb y) = V c main_v31 y
    congr 1
    funext a; apply Fin.ext
    match a with
    | ⟨0, _⟩ => show win1_6.index t (0 : Fin 2) * 128 + 1 * (y 0).val = (y 0).val; omega
    | ⟨1, _⟩ => show win1_6.index t (1 : Fin 2) * 128 + 1 * (y 1).val = (y 1).val; omega
  have a3 : iblk1 V c 3 t = V c main_v27 := by
    funext y
    show V c main_v27 (((cfg1.win 3).blk t).view.emb y) = V c main_v27 y
    congr 1
    funext a; apply Fin.ext
    match a with
    | ⟨0, _⟩ => show win1_3.index t (0 : Fin 2) * 1 + 1 * (y 0).val = (y 0).val; omega
    | ⟨1, _⟩ => show win1_3.index t (1 : Fin 2) * 128 + 1 * (y 1).val = (y 1).val; omega
  have a5 : iblk1 V c 5 t = V c main_v28 := by
    funext y
    show V c main_v28 (((cfg1.win 5).blk t).view.emb y) = V c main_v28 y
    congr 1
    funext a; apply Fin.ext
    match a with
    | ⟨0, _⟩ => show win1_5.index t (0 : Fin 2) * 1 + 1 * (y 0).val = (y 0).val; omega
    | ⟨1, _⟩ => show win1_5.index t (1 : Fin 2) * 128 + 1 * (y 1).val = (y 1).val; omega
  have a7 : iblk1 V c 7 t = V c main_v35 := by
    funext y
    show V c main_v35 (((cfg1.win 7).blk t).view.emb y) = V c main_v35 y
    congr 1
    funext a; apply Fin.ext
    match a with
    | ⟨0, _⟩ => show win1_7.index t (0 : Fin 2) * 1 + 1 * (y 0).val = (y 0).val; omega
    | ⟨1, _⟩ => show win1_7.index t (1 : Fin 2) * 128 + 1 * (y 1).val = (y 1).val; omega
  rw [a0, a1, a2, a3, a4, a5, a6, a7]

/-- What point t writes back to the output array is block t of the claimed array: the body's one store fills the whole
    5000 × 128 buffer with its result on the input blocks, which `body_eq` reads entry by entry. -/
theorem flushed_eq (c : Dev nD) (t : Fin cfg1.N) :
    (dat1 V c).flushed 8 t = ((cfg1.win 8).blk t).view.read (Elt Ideal) (G V c) := by
  show (cfg1.win 8).cut (grid1.coords t) ((dat1 V c).after 8 t) = _
  rw [after1_8]
  unfold out1_8
  rw [View.canon_unit_zero hz]
  simp only [View.ld_unit_zero (S := S5000x128) hz, View.ld_unit_zero (S := S128x128) hz,
    View.ld_unit_zero (S := S1x128) hz]
  funext y
  show k1_pay1 (iblk1 V c 0 t) (iblk1 V c 1 t) (iblk1 V c 2 t) (iblk1 V c 3 t) (iblk1 V c 4 t) (iblk1 V c 5 t)
      (iblk1 V c 6 t) (iblk1 V c 7 t) y = G V c (((cfg1.win 8).blk t).view.emb y)
  obtain ⟨p, j, rfl⟩ : ∃ (p : Fin 5000) (j : Fin 128), y = ix2 p j := ⟨y 0, y 1, eq_ix2 y⟩
  exact body_eq V c t p j

/-! ## The ten blocks tile the output -/

/-- An entry of the output array is in point t's block iff each coordinate is in the block's range on its axis. -/
theorem mem_blk (t : Fin cfg1.N) (i : S50000x128.Idx) :
    i ∈ ((cfg1.win 8).blk t).view.set ↔ ∀ a : Fin 2, win1_8.index t a * S5000x128.size a ≤ (i a).val
      ∧ (i a).val < win1_8.index t a * S5000x128.size a + S5000x128.size a := by
  show i ∈ ((View.whole main_v36).slice (win1_8.rect t)).set ↔ _
  rw [View.set_slice_whole, Rect.mem_set_unit]
  exact Iff.rfl

/-- Every entry (r, j) of the output array is in the block of the point r / 5000, which writes back. -/
theorem cover (i : S50000x128.Idx) :
    ∃ t : Fin cfg1.N, (cfg1.win 8).flush t = true ∧ i ∈ ((cfg1.win 8).blk t).view.set := by
  have hi0 : (i 0).val < 50000 := (i 0).isLt
  have hi1 : (i 1).val < 128 := (i 1).isLt
  have ht : (i 0).val / 5000 < 10 := by omega
  obtain ⟨-, -, -, -, e80, e81, -⟩ := idx_facts (⟨(i 0).val / 5000, ht⟩ : Fin cfg1.N)
  have e80' : win1_8.index (⟨(i 0).val / 5000, ht⟩ : Fin cfg1.N) (0 : Fin 2) = (i 0).val / 5000 := e80
  refine ⟨⟨(i 0).val / 5000, ht⟩, flush1_8 _, ?_⟩
  rw [mem_blk]
  intro a
  match a with
  | ⟨0, _⟩ =>
    show win1_8.index (⟨(i 0).val / 5000, ht⟩ : Fin cfg1.N) (0 : Fin 2) * 5000 ≤ (i 0).val
      ∧ (i 0).val < win1_8.index (⟨(i 0).val / 5000, ht⟩ : Fin cfg1.N) (0 : Fin 2) * 5000 + 5000
    omega
  | ⟨1, _⟩ =>
    show win1_8.index (⟨(i 0).val / 5000, ht⟩ : Fin cfg1.N) (1 : Fin 2) * 128 ≤ (i 1).val
      ∧ (i 1).val < win1_8.index (⟨(i 0).val / 5000, ht⟩ : Fin cfg1.N) (1 : Fin 2) * 128 + 128
    omega

/-! ## The whole array -/

/-- After region 1 its output array holds the second convolution and the 128-wide head of the arrays the region was
    entered with. -/
theorem arr1 (c : Dev nD) :
    (dat1 (F := Ideal) V c).arrAt 8 cfg1.N
      = Cert.Spec.conv2 (R := 50000) (N := 128) (V c main_v16) (V c main_v26) (V c main_arg6)
          (fun k => (V c main_v27 : FVec Ideal ⟨2, ![1, 128]⟩ .f32) (ix2 0 k)) (V c main_arg8)
          (fun k => (V c main_v28 : FVec Ideal ⟨2, ![1, 128]⟩ .f32) (ix2 0 k)) (V c main_v31)
          (fun k => (V c main_v35 : FVec Ideal ⟨2, ![1, 128]⟩ .f32) (ix2 0 k)) :=
  (dat1 V c).arrAt_eq_of_cover 8 (G V c) (fun t _ => flushed_eq V c t) cover

end Cert.KernelIdeal.Region1

end
-- ==== Proof.RefRead.lean ====
/-
  The reference read stage by stage against the row-wise specification. Its first hidden array is
  relu (relu ((x + agg) · W1a + b1a) · W1b + b1b): entry (i, j) of a matrix product is the sum over q of the left factor at
  (i, q) times the right factor at (q, j), the bias vector is laid along the columns of every row, and relu is the maximum
  with the zero array; so the array is Spec.conv1 of x and the aggregated array. Its result is
  ((relu ((h + agg') · W2a + b2a)) · W2b + b2b) · Wfc + bfc, which in the same way is Spec.conv2 at width 40. The second
  aggregation applies to h the very operations the first applies to x (the same gather by the wrapped source ids and the
  same scatter-add by the destination ids into zeros).
-/
import proofs.«180180_j5153960755352_1_alg».proof.Proof.Gen.ReferenceIdeal.Read
import proofs.«180180_j5153960755352_1_alg».proof.Proof.Spec
import proofs.«180180_j5153960755352_1_alg».proof.Proof.LibDotPlain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RefRead

open Idealize.ShloMosaic Idealize.ShloMosaic.TcCoe Idealize.ShloMosaic.ValueIdx Idealize.SL.Sem
open Cert.ReferenceIdeal Cert.ReferenceIdeal.Gen Cert.ReferenceIdeal.Read

/-! ## Where the factors and the bias are read

At result entry (r, j) and contraction position k a product reads its left factor at (r, k) and its right factor at
(k, j); a bias vector laid along the columns of every row is read at j. Each equation holds coordinate by coordinate. -/

private theorem lidx15 (r : Fin 50000) (j : Fin 128) (k : Fin 128) : lidx_main_v15 (ix2 r j) k = ix2 r k :=
  funext fun a => Fin.ext (by match a with | ⟨0, _⟩ => rfl | ⟨1, _⟩ => rfl)
private theorem ridx15 (r : Fin 50000) (j : Fin 128) (k : Fin 128) : ridx_main_v15 (ix2 r j) k = ix2 k j :=
  funext fun a => Fin.ext (by match a with | ⟨0, _⟩ => rfl | ⟨1, _⟩ => rfl)
private theorem lidx20 (r : Fin 50000) (j : Fin 128) (k : Fin 128) : lidx_main_v20 (ix2 r j) k = ix2 r k :=
  funext fun a => Fin.ext (by match a with | ⟨0, _⟩ => rfl | ⟨1, _⟩ => rfl)
private theorem ridx20 (r : Fin 50000) (j : Fin 128) (k : Fin 128) : ridx_main_v20 (ix2 r j) k = ix2 k j :=
  funext fun a => Fin.ext (by match a with | ⟨0, _⟩ => rfl | ⟨1, _⟩ => rfl)
private theorem lidx36 (r : Fin 50000) (j : Fin 128) (k : Fin 128) : lidx_main_v36 (ix2 r j) k = ix2 r k :=
  funext fun a => Fin.ext (by match a with | ⟨0, _⟩ => rfl | ⟨1, _⟩ => rfl)
private theorem ridx36 (r : Fin 50000) (j : Fin 128) (k : Fin 128) : ridx_main_v36 (ix2 r j) k = ix2 k j :=
  funext fun a => Fin.ext (by match a with | ⟨0, _⟩ => rfl | ⟨1, _⟩ => rfl)
private theorem lidx41 (r : Fin 50000) (j : Fin 128) (k : Fin 128) : lidx_main_v41 (ix2 r j) k = ix2 r k :=
  funext fun a => Fin.ext (by match a with | ⟨0, _⟩ => rfl | ⟨1, _⟩ => rfl)
private theorem ridx41 (r : Fin 50000) (j : Fin 128) (k : Fin 128) : ridx_main_v41 (ix2 r j) k = ix2 k j :=
  funext fun a => Fin.ext (by match a with | ⟨0, _⟩ => rfl | ⟨1, _⟩ => rfl)
private theorem lidx45 (r : Fin 50000) (j : Fin 40) (k : Fin 128) : lidx_main_v45 (ix2 r j) k = ix2 r k :=
  funext fun a => Fin.ext (by match a with | ⟨0, _⟩ => rfl | ⟨1, _⟩ => rfl)
private theorem ridx45 (r : Fin 50000) (j : Fin 40) (k : Fin 128) : ridx_main_v45 (ix2 r j) k = ix2 k j :=
  funext fun a => Fin.ext (by match a with | ⟨0, _⟩ => rfl | ⟨1, _⟩ => rfl)
private theorem bias16 (r : Fin 50000) (j : Fin 128) : idx_main_v16 (idx_main_v17 (ix2 r j)) = ix1 j :=
  funext fun a => Fin.ext (by match a with | ⟨0, _⟩ => rfl)
private theorem bias21 (r : Fin 50000) (j : Fin 128) : idx_main_v21 (idx_main_v22 (ix2 r j)) = ix1 j :=
  funext fun a => Fin.ext (by match a with | ⟨0, _⟩ => rfl)
private theorem bias37 (r : Fin 50000) (j : Fin 128) : idx_main_v37 (idx_main_v38 (ix2 r j)) = ix1 j :=
  funext fun a => Fin.ext (by match a with | ⟨0, _⟩ => rfl)
private theorem bias42 (r : Fin 50000) (j : Fin 128) : idx_main_v42 (idx_main_v43 (ix2 r j)) = ix1 j :=
  funext fun a => Fin.ext (by match a with | ⟨0, _⟩ => rfl)
private theorem bias46 (r : Fin 50000) (j : Fin 40) : idx_main_v46 (idx_main_v47 (ix2 r j)) = ix1 j :=
  funext fun a => Fin.ext (by match a with | ⟨0, _⟩ => rfl)

/-- The second aggregation is the first one's function applied to the first hidden array. -/
theorem agg2_eq (x0 : (⟨S50000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) :
    val_main_v34 (F := Ideal) x0 x1 x2 x3 x4 x5 = val_main_v13 (F := Ideal) (val_main_v24 (F := Ideal) x0 x1 x2 x3 x4 x5) x1 := by
  -- both sides are the same scatter-add into zeros of the same gathered rows: the second aggregation's index arrays are
  -- built from the edge array by the very operations that build the first one's
  rfl

/-- The inner layer of the first convolution at entry (r, j): the row x_r + agg_r through the first affine layer, then
    the maximum with zero. -/
private theorem h19 (x0 : (⟨S50000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (r : Fin 50000) (j : Fin 128) :
    val_main_v19 (F := Ideal) x0 x1 x2 x3 (ix2 r j)
      = max ((∑ q : Fin 128, (x0 (ix2 r q) + val_main_v13 (F := Ideal) x0 x1 (ix2 r q)) * x2 (ix2 q j)) + x3 (ix1 j)) Cert.Spec.zero := by
  rw [val_main_v19_apply, val_main_v18_apply, val_main_v15_apply, val_main_v17_apply, val_main_v16_apply,
    val_main_call0_v0_apply, val_main_call0_cst_apply, bias16]
  simp only [lidx15, ridx15, val_main_v14_apply]
  rfl

/-- The reference's first hidden array is the first convolution of x and its aggregation. -/
theorem h1_eq (x0 : (⟨S50000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) :
    val_main_v24 (F := Ideal) x0 x1 x2 x3 x4 x5
      = Cert.Spec.conv1 (R := 50000) x0 (val_main_v13 (F := Ideal) x0 x1) x2 (fun k => x3 (ix1 k)) x4 (fun k => x5 (ix1 k)) := by
  funext i
  obtain ⟨r, j, rfl⟩ : ∃ (r : Fin 50000) (j : Fin 128), i = ix2 r j := ⟨i 0, i 1, eq_ix2 i⟩
  rw [Cert.Spec.conv1_apply]
  rw [val_main_v24_apply, val_main_v23_apply, val_main_v20_apply, val_main_v22_apply, val_main_v21_apply,
    val_main_call1_v0_apply, val_main_call1_cst_apply, bias21]
  simp only [lidx20, ridx20, h19]
  rfl

/-- The inner layer of the second convolution at entry (r, j): the row h_r + agg'_r through its first affine layer, then
    the maximum with zero. -/
private theorem h40 (x0 : (⟨S50000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (r : Fin 50000) (j : Fin 128) :
    val_main_v40 (F := Ideal) x0 x1 x2 x3 x4 x5 x6 x7 (ix2 r j)
      = max ((∑ q : Fin 128, (val_main_v24 (F := Ideal) x0 x1 x2 x3 x4 x5 (ix2 r q)
            + val_main_v34 (F := Ideal) x0 x1 x2 x3 x4 x5 (ix2 r q)) * x6 (ix2 q j)) + x7 (ix1 j)) Cert.Spec.zero := by
  rw [val_main_v40_apply, val_main_v39_apply, val_main_v36_apply, val_main_v38_apply, val_main_v37_apply,
    val_main_call2_v0_apply, val_main_call2_cst_apply, bias37]
  simp only [lidx36, ridx36, val_main_v35_apply]
  rfl

/-- The second affine layer of the second convolution at entry (r, j), over the inner layer's row r. -/
private theorem h44 (x0 : (⟨S50000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (r : Fin 50000) (j : Fin 128) :
    val_main_v44 (F := Ideal) x0 x1 x2 x3 x4 x5 x6 x7 x8 x9 (ix2 r j)
      = (∑ q : Fin 128, val_main_v40 (F := Ideal) x0 x1 x2 x3 x4 x5 x6 x7 (ix2 r q) * x8 (ix2 q j)) + x9 (ix1 j) := by
  rw [val_main_v44_apply, val_main_v41_apply, val_main_v43_apply, val_main_v42_apply, bias42]
  simp only [lidx41, ridx41]
  rfl

/-- The reference's result is the second convolution and the 40-wide head of the first hidden array and its aggregation. -/
theorem out_eq (x0 : (⟨S50000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x40, .f32⟩ : BufTy).Contents (Elt Ideal)) (x11 : (⟨S40, .f32⟩ : BufTy).Contents (Elt Ideal)) :
    val_main_v48 (F := Ideal) x0 x1 x2 x3 x4 x5 x6 x7 x8 x9 x10 x11
      = Cert.Spec.conv2 (R := 50000) (N := 40) (val_main_v24 (F := Ideal) x0 x1 x2 x3 x4 x5)
          (val_main_v34 (F := Ideal) x0 x1 x2 x3 x4 x5) x6 (fun k => x7 (ix1 k)) x8 (fun k => x9 (ix1 k)) x10
          (fun j => x11 (ix1 j)) := by
  funext i
  obtain ⟨r, j, rfl⟩ : ∃ (r : Fin 50000) (j : Fin 40), i = ix2 r j := ⟨i 0, i 1, eq_ix2 i⟩
  rw [Cert.Spec.conv2_apply]
  rw [val_main_v48_apply, val_main_v45_apply, val_main_v47_apply, val_main_v46_apply, bias46]
  simp only [lidx45, ridx45, h44, h40]
  rfl

end Cert.ReferenceIdeal.RefRead

end
-- ==== Proof.LibScatterPad.lean ====
/-
  Writing a narrower array into the leading columns of a wider one, read back on those columns.

  `w.at[:, :N'].set(u)` lowers to a scatter with ONE scatter index, the column offset 0: every entry (q, j) of the update
  u (R × N') lands at entry (q, 0 + j) of the operand (R × N), each operand entry receiving at most one update and the
  scatter's body returning the update. So at a column j below N' the result holds u (q, j), whatever the operand held.
-/
import Idealize.ShloMosaic.PureOps.ShapeOps
import Idealize.ShloMosaic.Lib.ValueIdx

noncomputable section

namespace Cert.LibScatterPad

open Idealize.ShloMosaic Idealize.ShloMosaic.ValueIdx

/-- A left fold of "write `upd n` at position `g n`" leaves a position no `g n` hits as it was. -/
theorem foldl_set_ne {ι κ α : Type} [DecidableEq ι] (g : κ → ι) (upd : κ → α) (i : ι) (l : List κ) (x : ι → α)
    (h : ∀ n ∈ l, g n ≠ i) :
    (l.foldl (fun r n => fun i' => if i' = g n then upd n else r i') x) i = x i := by
  induction l generalizing x with
  | nil => rfl
  | cons a t ih =>
    rw [List.foldl_cons, ih _ (fun n hn => h n (List.mem_cons_of_mem _ hn))]
    exact if_neg (fun e => h a List.mem_cons_self e.symm)

/-- With `g` injective and the list without repeats, the fold holds `upd n₀` at position `g n₀` for every `n₀` of the
    list: the write of `n₀` puts it there and no later write touches that position. -/
theorem foldl_set_hit {ι κ α : Type} [DecidableEq ι] (g : κ → ι) (hg : Function.Injective g) (upd : κ → α) (n₀ : κ)
    (l : List κ) (x : ι → α) (hl : l.Nodup) (hn : n₀ ∈ l) :
    (l.foldl (fun r n => fun i' => if i' = g n then upd n else r i') x) (g n₀) = upd n₀ := by
  induction l generalizing x with
  | nil => cases hn
  | cons a t ih =>
    rw [List.foldl_cons]
    rw [List.nodup_cons] at hl
    rcases List.mem_cons.1 hn with rfl | hn'
    · rw [foldl_set_ne g upd (g n₀) t _ (fun n hn' e => hl.1 (hg e ▸ hn'))]
      exact if_pos rfl
    · exact ih _ hl.2 hn'

/-- A scatter whose body returns the update, and whose every update index `v` lands inside the operand at `g v` with
    `g` injective, holds `upd v` at `g v`. -/
theorem scatter_set_apply {s si u : Shape} {w : Nat} {α : Type} (d : ScatterDims s si u) (x : s.Idx → α) (idx : IVec si w)
    (upd : u.Idx → α) (g : u.Idx → s.Idx) (hg : Function.Injective g) (h : ∀ v, d.resultIdx? v idx = some (g v)) (v : u.Idx) :
    Host.scatter d (fun _ b => b) x idx upd (g v) = upd v := by
  have hstep : Host.scatter d (fun _ b => b) x idx upd = (List.finRange u.numel).foldl
      (fun r n => fun i' => if i' = (g ∘ u.rowMajor.symm) n then (upd ∘ u.rowMajor.symm) n else r i') x := by
    unfold Host.scatter
    congr 1
    funext r n
    rw [h]
    rfl
  rw [hstep]
  have := foldl_set_hit (g ∘ u.rowMajor.symm) (hg.comp u.rowMajor.symm.injective) (upd ∘ u.rowMajor.symm) (u.rowMajor v)
    (List.finRange u.numel) x (List.nodup_finRange _) (List.mem_finRange _)
  simpa using this

/-- The scatter dimension numbers of `w.at[:, :40].set(u)` for a 128 × 128 array w and a 128 × 40 array u: both update
    axes are window axes, the one scatter index is the start along axis 1. -/
def padW : ScatterDims ⟨2, ![128, 128]⟩ ⟨1, ![1]⟩ ⟨2, ![128, 40]⟩ where
  updateWindowDims := [0, 1]
  insertedWindowDims := []
  scatterDimsToOperandDims := [1]
  indexVectorDim := 0

/-- The same for a 1 × 128 array and a 1 × 40 array. -/
def padB : ScatterDims ⟨2, ![1, 128]⟩ ⟨1, ![1]⟩ ⟨2, ![1, 40]⟩ where
  updateWindowDims := [0, 1]
  insertedWindowDims := []
  scatterDimsToOperandDims := [1]
  indexVectorDim := 0

/-- With the one scatter index zero, every window starts at 0 on both operand axes. -/
theorem padW_start (v : (⟨2, ![128, 40]⟩ : Shape).Idx) (idx : IVec ⟨1, ![1]⟩ 32) (hidx : ∀ k, idx k = 0#32)
    (a : Fin 2) : padW.start v idx a = 0 := by
  unfold ScatterDims.start
  split
  · rw [hidx]; rfl
  · rfl

/-- Both update axes are window axes, in order: the window coordinate on operand axis `a` is the update's coordinate `a`. -/
theorem padW_window (v : (⟨2, ![128, 40]⟩ : Shape).Idx) (a : Fin 2) : padW.window v a = (v a).val := by
  match a with
  | ⟨0, _⟩ => rfl
  | ⟨1, _⟩ => rfl

/-- So update index (r, c) lands at operand index (r, c), which is inside the operand. -/
theorem padW_resultIdx (v : (⟨2, ![128, 40]⟩ : Shape).Idx) (idx : IVec ⟨1, ![1]⟩ 32) (hidx : ∀ k, idx k = 0#32) :
    padW.resultIdx? v idx = some (ix2 (n0 := 128) (n1 := 128) (v 0) ((v 1).castLE (by decide))) := by
  unfold ScatterDims.resultIdx?
  have hb : ∀ a, 0 ≤ padW.start v idx a + padW.window v a ∧
      padW.start v idx a + (padW.window v a : Int) < (⟨2, ![128, 128]⟩ : Shape).size a := by
    intro a
    rw [padW_start v idx hidx, padW_window]
    match a with
    | ⟨0, _⟩ =>
      have h0 : (v 0).val < 128 := (v 0).isLt
      refine ⟨by omega, ?_⟩
      show (0 : Int) + ((v 0).val : Int) < ((128 : Nat) : Int)
      omega
    | ⟨1, _⟩ =>
      have h1 : (v 1).val < 40 := (v 1).isLt
      refine ⟨by omega, ?_⟩
      show (0 : Int) + ((v 1).val : Int) < ((128 : Nat) : Int)
      omega
  rw [dif_pos hb]
  congr 1
  funext a
  refine Fin.ext ?_
  show (padW.start v idx a + padW.window v a).toNat = _
  rw [padW_start v idx hidx, padW_window]
  match a with
  | ⟨0, _⟩ => show ((0 : Int) + ((v 0).val : Int)).toNat = (v 0).val; simp
  | ⟨1, _⟩ => show ((0 : Int) + ((v 1).val : Int)).toNat = (v 1).val; simp

/-- The landing map (r, c) ↦ (r, c) is injective. -/
theorem padW_land_injective : Function.Injective
    (fun v : (⟨2, ![128, 40]⟩ : Shape).Idx => ix2 (n0 := 128) (n1 := 128) (v 0) ((v 1).castLE (by decide))) := by
  intro v v' e
  have e0 := congrFun e 0
  have e1 := congrFun e 1
  rw [eq_ix2 v, eq_ix2 v']
  simp only [ix2] at e0 e1
  have e1v := congrArg Fin.val e1
  have e1' : v 1 = v' 1 := Fin.ext e1v
  rw [e0, e1']

/-- With the one scatter index zero, every window starts at 0 on both operand axes. -/
theorem padB_start (v : (⟨2, ![1, 40]⟩ : Shape).Idx) (idx : IVec ⟨1, ![1]⟩ 32) (hidx : ∀ k, idx k = 0#32)
    (a : Fin 2) : padB.start v idx a = 0 := by
  unfold ScatterDims.start
  split
  · rw [hidx]; rfl
  · rfl

/-- Both update axes are window axes, in order: the window coordinate on operand axis `a` is the update's coordinate `a`. -/
theorem padB_window (v : (⟨2, ![1, 40]⟩ : Shape).Idx) (a : Fin 2) : padB.window v a = (v a).val := by
  match a with
  | ⟨0, _⟩ => rfl
  | ⟨1, _⟩ => rfl

/-- So update index (r, c) lands at operand index (r, c), which is inside the operand. -/
theorem padB_resultIdx (v : (⟨2, ![1, 40]⟩ : Shape).Idx) (idx : IVec ⟨1, ![1]⟩ 32) (hidx : ∀ k, idx k = 0#32) :
    padB.resultIdx? v idx = some (ix2 (n0 := 1) (n1 := 128) (v 0) ((v 1).castLE (by decide))) := by
  unfold ScatterDims.resultIdx?
  have hb : ∀ a, 0 ≤ padB.start v idx a + padB.window v a ∧
      padB.start v idx a + (padB.window v a : Int) < (⟨2, ![1, 128]⟩ : Shape).size a := by
    intro a
    rw [padB_start v idx hidx, padB_window]
    match a with
    | ⟨0, _⟩ =>
      have h0 : (v 0).val < 1 := (v 0).isLt
      refine ⟨by omega, ?_⟩
      show (0 : Int) + ((v 0).val : Int) < ((1 : Nat) : Int)
      omega
    | ⟨1, _⟩ =>
      have h1 : (v 1).val < 40 := (v 1).isLt
      refine ⟨by omega, ?_⟩
      show (0 : Int) + ((v 1).val : Int) < ((128 : Nat) : Int)
      omega
  rw [dif_pos hb]
  congr 1
  funext a
  refine Fin.ext ?_
  show (padB.start v idx a + padB.window v a).toNat = _
  rw [padB_start v idx hidx, padB_window]
  match a with
  | ⟨0, _⟩ => show ((0 : Int) + ((v 0).val : Int)).toNat = (v 0).val; simp
  | ⟨1, _⟩ => show ((0 : Int) + ((v 1).val : Int)).toNat = (v 1).val; simp

/-- The landing map (r, c) ↦ (r, c) is injective. -/
theorem padB_land_injective : Function.Injective
    (fun v : (⟨2, ![1, 40]⟩ : Shape).Idx => ix2 (n0 := 1) (n1 := 128) (v 0) ((v 1).castLE (by decide))) := by
  intro v v' e
  have e0 := congrFun e 0
  have e1 := congrFun e 1
  rw [eq_ix2 v, eq_ix2 v']
  simp only [ix2] at e0 e1
  have e1v := congrArg Fin.val e1
  have e1' : v 1 = v' 1 := Fin.ext e1v
  rw [e0, e1']

/-- The 128 × 40 update written at column offset 0 into a 128 × 128 array is read back at every entry (q, j), j < 40. -/
theorem padW_apply {α : Type} (x : (⟨2, ![128, 128]⟩ : Shape).Idx → α) (idx : IVec ⟨1, ![1]⟩ 32) (hidx : ∀ k, idx k = 0#32)
    (upd : (⟨2, ![128, 40]⟩ : Shape).Idx → α) (q : Fin 128) (j : Fin 40) :
    Host.scatter padW (fun _ b => b) x idx upd (ix2 q (j.castLE (by decide))) = upd (ix2 q j) := by
  exact scatter_set_apply padW x idx upd (fun v => ix2 (n0 := 128) (n1 := 128) (v 0) ((v 1).castLE (by decide)))
    padW_land_injective (fun v => padW_resultIdx v idx hidx) (ix2 q j)

/-- The 1 × 40 update written at column offset 0 into a 1 × 128 array is read back at every entry (0, j), j < 40. -/
theorem padB_apply {α : Type} (x : (⟨2, ![1, 128]⟩ : Shape).Idx → α) (idx : IVec ⟨1, ![1]⟩ 32) (hidx : ∀ k, idx k = 0#32)
    (upd : (⟨2, ![1, 40]⟩ : Shape).Idx → α) (q : Fin 1) (j : Fin 40) :
    Host.scatter padB (fun _ b => b) x idx upd (ix2 q (j.castLE (by decide))) = upd (ix2 q j) := by
  exact scatter_set_apply padB x idx upd (fun v => ix2 (n0 := 1) (n1 := 128) (v 0) ((v 1).castLE (by decide)))
    padB_land_injective (fun v => padB_resultIdx v idx hidx) (ix2 q j)

end Cert.LibScatterPad

end
-- ==== Proof.PadRead.lean ====
/-
  The padded head and the bias rows read at an entry. A bias vector of length n reshaped to a 1 × n row holds entry k of
  the vector at (0, k). The head's weights written into the leading 40 columns of an all-zero 128 × 128 array hold the
  weight (q, j) at (q, j) for j < 40, and likewise the head's bias row written into the leading 40 columns of an all-zero
  1 × 128 row.
-/
import proofs.«180180_j5153960755352_1_alg».proof.Proof.HostK
import proofs.«180180_j5153960755352_1_alg».proof.Proof.LibScatterPad
import Idealize.ShloMosaic.Lib.Pipeline.Value
import Idealize.ShloMosaic.Lib.ValueIdx
import Idealize.ShloMosaic.Lib.ValueLayout

set_option maxRecDepth 16384

noncomputable section

namespace Cert.KernelIdeal.PadRead

open Idealize.ShloMosaic Idealize.ShloMosaic.TcCoe Idealize.ShloMosaic.ValueIdx Idealize.SL.Sem
open Cert.KernelIdeal Cert.KernelIdeal.Gen Cert.KernelIdeal.HostK

/-- A length-128 vector reshaped to a 1 × 128 row, read at (0, k). -/
theorem row128_apply (b : (⟨S128, .f32⟩ : BufTy).Contents (Elt Ideal)) (k : Fin 128) :
    (shapeCast _ b shapeCasts_S128_S1x128 : FVec Ideal ⟨2, ![1, 128]⟩ .f32) (ix2 0 k) = b (ix1 k) := by
  refine shapeCast_apply b shapeCasts_S128_S1x128 (ix2 0 k) (ix1 k) ?_
  rw [Shape.rowMajor_val_one, Shape.rowMajor_val_two]
  show k.val = (0 : Nat) * 128 + k.val
  omega

/-- The padded head weights at one of the first 40 columns are the head weights. -/
theorem padHeadW_apply (w : (⟨S128x40, .f32⟩ : BufTy).Contents (Elt Ideal)) (q : Fin 128) (j : Fin 40) :
    (padHeadW (F := Ideal) w : FVec Ideal ⟨2, ![128, 128]⟩ .f32) (ix2 q (j.castLE (by decide))) = w (ix2 q j) := by
  unfold padHeadW
  exact Cert.LibScatterPad.padW_apply _ _ (fun _ => rfl) w q j

/-- The padded head bias row at one of the first 40 columns is the head bias. -/
theorem padHeadB_apply (b : (⟨S40, .f32⟩ : BufTy).Contents (Elt Ideal)) (j : Fin 40) :
    (padHeadB (F := Ideal) b : FVec Ideal ⟨2, ![1, 128]⟩ .f32) (ix2 0 (j.castLE (by decide))) = b (ix1 j) := by
  unfold padHeadB
  refine (Cert.LibScatterPad.padB_apply _ _ (fun _ => rfl) _ 0 j).trans ?_
  refine shapeCast_apply b shapeCasts_S40_S1x40 (ix2 0 j) (ix1 j) ?_
  rw [Shape.rowMajor_val_one, Shape.rowMajor_val_two]
  show j.val = (0 : Nat) * 40 + j.val
  omega

end Cert.KernelIdeal.PadRead

end
-- ==== Proof.Bridge.lean ====
/-
  The idealized kernel's result is the reference's function of the arguments.

  The run's last boundary holds, at the result buffer, the first 40 columns of the second region's output. That output is
  Spec.conv2 (128 wide, on the zero-padded head) of the first hidden array h and its aggregation; h is the first region's
  output, Spec.conv1 of x and its aggregation; the aggregations are one function, applied first to x and then to h, of the
  ids the first host stretch cut out of the edge list. A padded head read at one of its first 40 columns is the head
  itself, so the 128-wide result read there is the 40-wide one: the reference's, stage by stage.
-/
import proofs.«180180_j5153960755352_1_alg».proof.Proof.Gen.KernelIdeal.Frame
import proofs.«180180_j5153960755352_1_alg».proof.Proof.HostK
import proofs.«180180_j5153960755352_1_alg».proof.Proof.Region0
import proofs.«180180_j5153960755352_1_alg».proof.Proof.Region1
import proofs.«180180_j5153960755352_1_alg».proof.Proof.RefRead
import proofs.«180180_j5153960755352_1_alg».proof.Proof.LibScatterPad
import proofs.«180180_j5153960755352_1_alg».proof.Proof.PadRead
import proofs.«180180_j5153960755352_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Bridge

open Idealize.ShloMosaic Idealize.ShloMosaic.TcCoe Idealize.ShloMosaic.ValueIdx Idealize.SL.Sem
open Cert.KernelIdeal Cert.KernelIdeal.Gen Cert.KernelIdeal.HostK

variable (m : (ℓ : Loc nD τ sig) → Buf (Elt Ideal) ℓ) (ρ : Dev nD → PrngReg)

/-! ## The kernel's aggregation is the reference's -/

/-- The reference's aggregation stage is the kernel's aggregation of the same rows by the same ids: the two programs
    print the same operations. -/
theorem refAgg_eq (x : (⟨S50000x128, .f32⟩ : BufTy).Contents (Elt Ideal)) (e : (⟨S2x600000, .i32⟩ : BufTy).Contents (Elt Ideal)) :
    Cert.ReferenceIdeal.Read.val_main_v13 (F := Ideal) x e = aggOf (F := Ideal) x (srcIds e) (dstIds e) := by
  unfold Cert.ReferenceIdeal.Read.val_main_v13 Cert.ReferenceIdeal.Read.val_main_v12 Cert.ReferenceIdeal.Read.val_main_v11
    Cert.ReferenceIdeal.Read.val_main_v10 Cert.ReferenceIdeal.Read.val_main_v9 Cert.ReferenceIdeal.Read.val_main_v8
    Cert.ReferenceIdeal.Read.val_main_v7 Cert.ReferenceIdeal.Read.val_main_v6 Cert.ReferenceIdeal.Read.val_main_v5
    Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_c
    Cert.ReferenceIdeal.Read.val_main_c_0 Cert.ReferenceIdeal.Read.val_main_cst aggOf srcIds dstIds
  rfl

/-! ## The first region's entry contents -/

theorem V1_arg0 (c : Dev nD) : V1 m ρ c main_arg0 = m ((c : Thread nD τ).loc main_arg0) := ops0_arg0 (W0 m ρ c)
theorem V1_arg2 (c : Dev nD) : V1 m ρ c main_arg2 = m ((c : Thread nD τ).loc main_arg2) := ops0_arg2 (W0 m ρ c)
theorem V1_arg4 (c : Dev nD) : V1 m ρ c main_arg4 = m ((c : Thread nD τ).loc main_arg4) := ops0_arg4 (W0 m ρ c)
theorem V1_v13 (c : Dev nD) : V1 m ρ c main_v13
    = aggOf (m ((c : Thread nD τ).loc main_arg0)) (srcIds (m ((c : Thread nD τ).loc main_arg1))) (dstIds (m ((c : Thread nD τ).loc main_arg1))) :=
  ops0_v13 (W0 m ρ c)
theorem V1_v14 (c : Dev nD) : V1 m ρ c main_v14 = shapeCast _ (m ((c : Thread nD τ).loc main_arg3)) shapeCasts_S128_S1x128 := ops0_v14 (W0 m ρ c)
theorem V1_v15 (c : Dev nD) : V1 m ρ c main_v15 = shapeCast _ (m ((c : Thread nD τ).loc main_arg5)) shapeCasts_S128_S1x128 := ops0_v15 (W0 m ρ c)

/-! ## The first hidden array -/

/-- The first hidden array as a function of the launch memory: the first convolution of x and its aggregation. -/
def h1 (c : Dev nD) : Cert.Spec.Mat 50000 128 :=
  Cert.Spec.conv1 (R := 50000) (m ((c : Thread nD τ).loc main_arg0)) (aggOf (m ((c : Thread nD τ).loc main_arg0)) (srcIds (m ((c : Thread nD τ).loc main_arg1))) (dstIds (m ((c : Thread nD τ).loc main_arg1)))) (m ((c : Thread nD τ).loc main_arg2))
    (fun k => (m ((c : Thread nD τ).loc main_arg3)) (ix1 k)) (m ((c : Thread nD τ).loc main_arg4)) (fun k => (m ((c : Thread nD τ).loc main_arg5)) (ix1 k))

/-- The first region leaves the first hidden array in its output buffer. -/
theorem W2_v16 (c : Dev nD) : W2 m ρ c (Proc.devRef .tc main_v16) = h1 m c := by
  refine (show W2 m ρ c (Proc.devRef .tc main_v16) = (dat0 (V1 m ρ) c).arrAt 6 cfg0.N from W2_arr m ρ c 6).trans ?_
  rw [Cert.KernelIdeal.Region0.arr0 (V1 m ρ) c, V1_arg0, V1_v13, V1_arg2, V1_v14, V1_arg4, V1_v15]
  have e3 := funext fun k => Cert.KernelIdeal.PadRead.row128_apply (m ((c : Thread nD τ).loc main_arg3)) k
  have e5 := funext fun k => Cert.KernelIdeal.PadRead.row128_apply (m ((c : Thread nD τ).loc main_arg5)) k
  rw [e3, e5]
  rfl

/-! ## The second region's entry contents -/

theorem W2_v1 (c : Dev nD) : W2 m ρ c (Proc.devRef .tc main_v1) = srcIds (m ((c : Thread nD τ).loc main_arg1)) :=
  (W2_of_ne m ρ c main_v1 (by decide)).trans (ops0_v1 (W0 m ρ c))
theorem W2_v3 (c : Dev nD) : W2 m ρ c (Proc.devRef .tc main_v3) = dstIds (m ((c : Thread nD τ).loc main_arg1)) :=
  (W2_of_ne m ρ c main_v3 (by decide)).trans (ops0_v3 (W0 m ρ c))
theorem W2_arg6 (c : Dev nD) : W2 m ρ c (Proc.devRef .tc main_arg6) = (m ((c : Thread nD τ).loc main_arg6)) :=
  (W2_of_ne m ρ c main_arg6 (by decide)).trans (ops0_arg6 (W0 m ρ c))
theorem W2_arg7 (c : Dev nD) : W2 m ρ c (Proc.devRef .tc main_arg7) = (m ((c : Thread nD τ).loc main_arg7)) :=
  (W2_of_ne m ρ c main_arg7 (by decide)).trans (ops0_arg7 (W0 m ρ c))
theorem W2_arg8 (c : Dev nD) : W2 m ρ c (Proc.devRef .tc main_arg8) = (m ((c : Thread nD τ).loc main_arg8)) :=
  (W2_of_ne m ρ c main_arg8 (by decide)).trans (ops0_arg8 (W0 m ρ c))
theorem W2_arg9 (c : Dev nD) : W2 m ρ c (Proc.devRef .tc main_arg9) = (m ((c : Thread nD τ).loc main_arg9)) :=
  (W2_of_ne m ρ c main_arg9 (by decide)).trans (ops0_arg9 (W0 m ρ c))
theorem W2_arg10 (c : Dev nD) : W2 m ρ c (Proc.devRef .tc main_arg10) = (m ((c : Thread nD τ).loc main_arg10)) :=
  (W2_of_ne m ρ c main_arg10 (by decide)).trans (ops0_arg10 (W0 m ρ c))
theorem W2_arg11 (c : Dev nD) : W2 m ρ c (Proc.devRef .tc main_arg11) = (m ((c : Thread nD τ).loc main_arg11)) :=
  (W2_of_ne m ρ c main_arg11 (by decide)).trans (ops0_arg11 (W0 m ρ c))

theorem V3_v16 (c : Dev nD) : V3 m ρ c main_v16 = h1 m c := (ops1_v16 (W2 m ρ c)).trans (W2_v16 m ρ c)
theorem V3_v26 (c : Dev nD) : V3 m ρ c main_v26 = aggOf (h1 m c) (srcIds (m ((c : Thread nD τ).loc main_arg1))) (dstIds (m ((c : Thread nD τ).loc main_arg1))) := by
  refine (ops1_v26 (W2 m ρ c)).trans ?_
  rw [W2_v16, W2_v1, W2_v3]
theorem V3_arg6 (c : Dev nD) : V3 m ρ c main_arg6 = (m ((c : Thread nD τ).loc main_arg6)) := (ops1_arg6 (W2 m ρ c)).trans (W2_arg6 m ρ c)
theorem V3_arg8 (c : Dev nD) : V3 m ρ c main_arg8 = (m ((c : Thread nD τ).loc main_arg8)) := (ops1_arg8 (W2 m ρ c)).trans (W2_arg8 m ρ c)
theorem V3_v27 (c : Dev nD) : V3 m ρ c main_v27 = shapeCast _ (m ((c : Thread nD τ).loc main_arg7)) shapeCasts_S128_S1x128 := by
  refine (ops1_v27 (W2 m ρ c)).trans ?_
  rw [W2_arg7]
theorem V3_v28 (c : Dev nD) : V3 m ρ c main_v28 = shapeCast _ (m ((c : Thread nD τ).loc main_arg9)) shapeCasts_S128_S1x128 := by
  refine (ops1_v28 (W2 m ρ c)).trans ?_
  rw [W2_arg9]
theorem V3_v31 (c : Dev nD) : V3 m ρ c main_v31 = padHeadW (m ((c : Thread nD τ).loc main_arg10)) := by
  refine (ops1_v31 (W2 m ρ c)).trans ?_
  rw [W2_arg10]
theorem V3_v35 (c : Dev nD) : V3 m ρ c main_v35 = padHeadB (m ((c : Thread nD τ).loc main_arg11)) := by
  refine (ops1_v35 (W2 m ρ c)).trans ?_
  rw [W2_arg11]

/-! ## The second region's output and the result -/

/-- The second region leaves in its output buffer the second convolution and the 128-wide head of the first hidden
    array and its aggregation. -/
theorem W4_v36 (c : Dev nD) : W4 m ρ c (Proc.devRef .tc main_v36)
    = Cert.Spec.conv2 (R := 50000) (N := 128) (h1 m c) (aggOf (h1 m c) (srcIds (m ((c : Thread nD τ).loc main_arg1))) (dstIds (m ((c : Thread nD τ).loc main_arg1)))) (m ((c : Thread nD τ).loc main_arg6))
        (fun k => (m ((c : Thread nD τ).loc main_arg7)) (ix1 k)) (m ((c : Thread nD τ).loc main_arg8)) (fun k => (m ((c : Thread nD τ).loc main_arg9)) (ix1 k)) (padHeadW (m ((c : Thread nD τ).loc main_arg10)))
        (fun k => (padHeadB (m ((c : Thread nD τ).loc main_arg11)) : FVec Ideal ⟨2, ![1, 128]⟩ .f32) (ix2 0 k)) := by
  refine (show W4 m ρ c (Proc.devRef .tc main_v36) = (dat1 (V3 m ρ) c).arrAt 8 cfg1.N from W4_arr m ρ c 8).trans ?_
  rw [Cert.KernelIdeal.Region1.arr1 (V3 m ρ) c, V3_v16, V3_v26, V3_arg6, V3_v27, V3_arg8, V3_v28, V3_v31, V3_v35]
  have e7 := funext fun k => Cert.KernelIdeal.PadRead.row128_apply (m ((c : Thread nD τ).loc main_arg7)) k
  have e9 := funext fun k => Cert.KernelIdeal.PadRead.row128_apply (m ((c : Thread nD τ).loc main_arg9)) k
  rw [e7, e9]

/-- THE RESULT: the result buffer at the run's last boundary holds the reference's function of the arguments. -/
theorem result_eq (c : Dev nD) : W5 m ρ c (Proc.devRef .tc main_v37)
    = Cert.ReferenceIdeal.Read.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (ops2_v37 (W4 m ρ c)).trans ?_
  rw [W4_v36, Cert.ReferenceIdeal.RefRead.out_eq, Cert.ReferenceIdeal.RefRead.agg2_eq, Cert.ReferenceIdeal.RefRead.h1_eq]
  simp only [refAgg_eq]
  funext i
  obtain ⟨r, j, rfl⟩ : ∃ (r : Fin 50000) (j : Fin 40), i = ix2 r j := ⟨i 0, i 1, eq_ix2 i⟩
  refine (extractStridedSlice_apply ![0, 0] _ slices_S50000x128_S50000x40_0_0 (ix2 r j)
    (ix2 (n0 := 50000) (n1 := 128) r (j.castLE (by decide))) (fun a => match a with
      | ⟨0, _⟩ => by show r.val = 0 + r.val; omega
      | ⟨1, _⟩ => by show j.val = 0 + j.val; omega)).trans ?_
  unfold h1
  exact Cert.Spec.conv2_narrow (by decide) _ _ _ _ _ _ _ _ _ _
    (fun q j' => Cert.KernelIdeal.PadRead.padHeadW_apply _ q j')
    (fun j' => Cert.KernelIdeal.PadRead.padHeadB_apply _ j') r j

end Cert.KernelIdeal.Bridge

end
-- ==== Proof.lean ====
/-
  A two-layer graph isomorphism network with a linear head on 50000 nodes and 600000 edges, as a tiled kernel against its
  plain reference, over the extended reals.

  Both programs aggregate neighbour rows by the same host operations (a gather of rows at the source ids, added into the
  rows the destination ids name). The kernel then runs each convolution's two-layer perceptron, and the head, as a
  region over ten blocks of 5000 rows, with the head's weights and bias padded with zeros to width 128 and the padding
  columns cut off afterwards; the reference computes whole-array matrix products. Read exactly, a change of float format
  is the identity and every matrix product is the same sum of products, so each region's output is the row-wise function
  Spec.conv1 / Spec.conv2 of its inputs, the reference's stages are the same functions, and the padded head read on its
  first 40 columns is the head. No law of the extended reals beyond this re-indexing is used, and the precondition is not
  needed for the value.

  The frames of the two kernel programs are the generated ones; the reference's frame is its generated run with the result
  dropped; the idealization rewrote nothing, so there is nothing to preserve.
-/
import proofs.«180180_j5153960755352_1_alg».proof.Defs
import proofs.«180180_j5153960755352_1_alg».proof.Proof.Gen.Kernel
import proofs.«180180_j5153960755352_1_alg».proof.Proof.Gen.Kernel.Skeleton
import proofs.«180180_j5153960755352_1_alg».proof.Proof.Gen.Kernel.Launch
import proofs.«180180_j5153960755352_1_alg».proof.Proof.Gen.Kernel.Points
import proofs.«180180_j5153960755352_1_alg».proof.Proof.Gen.Kernel.Frame
import proofs.«180180_j5153960755352_1_alg».proof.Proof.Gen.KernelIdeal
import proofs.«180180_j5153960755352_1_alg».proof.Proof.Gen.KernelIdeal.Skeleton
import proofs.«180180_j5153960755352_1_alg».proof.Proof.Gen.KernelIdeal.Launch
import proofs.«180180_j5153960755352_1_alg».proof.Proof.Gen.KernelIdeal.Points
import proofs.«180180_j5153960755352_1_alg».proof.Proof.Gen.KernelIdeal.Frame
import proofs.«180180_j5153960755352_1_alg».proof.Proof.Gen.ReferenceIdeal
import proofs.«180180_j5153960755352_1_alg».proof.Proof.Gen.ReferenceIdeal.Run
import proofs.«180180_j5153960755352_1_alg».proof.Proof.Gen.ReferenceIdeal.Read
import proofs.«180180_j5153960755352_1_alg».proof.Proof.Gen.Pre_finite_inputs
import proofs.«180180_j5153960755352_1_alg».proof.Proof.RunKI
import proofs.«180180_j5153960755352_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the reference's function of the arguments in their result: the kernel by its run
    read at the last boundary, the reference by its generated run, from memories that agree on the arguments. -/
theorem algebraic : Cert.algebraic_KernelIdeal_ReferenceIdeal := by
  intro m ρ m' ρ' _ hagree
  refine ⟨fun c => Cert.ReferenceIdeal.Read.val_main_v48 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Bridge.result_eq m ρ c), (h c).2⟩)
      (Cert.KernelIdeal.RunKI.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v48_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2.1, (hagree c).2.2.2.2.2.2.2.2.2.2.1,
      (hagree c).2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
